-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x10 : Shape := ⟨2, ![131072, 10]⟩
abbrev S128x10 : Shape := ⟨2, ![128, 10]⟩
abbrev S128x128 : Shape := ⟨2, ![128, 128]⟩
abbrev S_ : Shape := ⟨0, ![]⟩

class Facts : Prop where
  bcast_S_S131072x10 : S_.BroadcastsInDim S131072x10 (![] : Fin 0 → Fin S131072x10.rank)
  reducesTo_S131072x10_S_d0_1 : S131072x10.ReducesTo [0, 1] S_
  h_S_ : 0 < S_.numel
  bcast_S_S128x10 : S_.BroadcastsInDim S128x10 (![] : Fin 0 → Fin S128x10.rank)
  reducesTo_S128x10_S_d0_1 : S128x10.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S131072x10 .f32) (main_arg1 : FVec F S128x10 .f32) (main_arg2 : FVec F S128x128 .f32) : IVec S_ 1 :=
  let main_v0 : FVec F S131072x10 .f32 := Host.absf main_arg0
  let main_cst : FVec F S_ .f32 := constant S_ .f32 0x7F800000#32
  let main_v1 : FVec F S131072x10 .f32 := broadcastInDim S131072x10 ![] bcast_S_S131072x10 main_cst
  let main_v2 : IVec S131072x10 1 := cmpf .olt main_v0 main_v1
  let main_c : IVec S_ 1 := constantI S_ 1 1#1
  let main_v3 : IVec S_ 1 := (fun x v => Host.reduce IntOp.andi x v reducesTo_S131072x10_S_d0_1 h_S_) main_v2 main_c
  let main_v4 : FVec F S128x10 .f32 := Host.absf main_arg1
  let main_cst_0 : FVec F S_ .f32 := constant S_ .f32 0x7F800000#32
  let main_v5 : FVec F S128x10 .f32 := broadcastInDim S128x10 ![] bcast_S_S128x10 main_cst_0
  let main_v6 : IVec S128x10 1 := cmpf .olt main_v4 main_v5
  let main_c_1 : IVec S_ 1 := constantI S_ 1 1#1
  let main_v7 : IVec S_ 1 := (fun x v => Host.reduce IntOp.andi x v reducesTo_S128x10_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S131072x10 : Shape := ⟨2, ![131072, 10]⟩
abbrev S128x10 : Shape := ⟨2, ![128, 10]⟩
abbrev S128x128 : Shape := ⟨2, ![128, 128]⟩
abbrev S10x131072 : Shape := ⟨2, ![10, 131072]⟩
abbrev S10x128 : Shape := ⟨2, ![10, 128]⟩
abbrev S10x128x1 : Shape := ⟨3, ![10, 128, 1]⟩
abbrev S10x128x128 : Shape := ⟨3, ![10, 128, 128]⟩
abbrev S1280x128 : Shape := ⟨2, ![1280, 128]⟩
abbrev S131072x128 : Shape := ⟨2, ![131072, 128]⟩
abbrev S10x1024 : Shape := ⟨2, ![10, 1024]⟩
abbrev S1024x128 : Shape := ⟨2, ![1024, 128]⟩
abbrev S1x128 : Shape := ⟨2, ![1, 128]⟩

abbrev nBuf : Space → Nat
  | .hbm => 9
  | .vmem => 6
  | .smem => 0
  | _ => 0

abbrev bufTy : (tb : Table) → Fin (tcTables nBuf tb) → BufTy
  | .hbm, ⟨0, _⟩ => ⟨S131072x10, .f32⟩
  | .hbm, ⟨1, _⟩ => ⟨S128x10, .f32⟩
  | .hbm, ⟨2, _⟩ => ⟨S128x128, .f32⟩
  | .hbm, ⟨3, _⟩ => ⟨S10x131072, .f32⟩
  | .hbm, ⟨4, _⟩ => ⟨S10x128, .f32⟩
  | .hbm, ⟨5, _⟩ => ⟨S10x128x1, .f32⟩
  | .hbm, ⟨6, _⟩ => ⟨S10x128x128, .f32⟩
  | .hbm, ⟨7, _⟩ => ⟨S1280x128, .f32⟩
  | .hbm, ⟨8, _⟩ => ⟨S131072x128, .f32⟩
  | .local _ .vmem, ⟨0, _⟩ => ⟨S10x1024, .f32⟩
  | .local _ .vmem, ⟨1, _⟩ => ⟨S10x1024, .f32⟩
  | .local _ .vmem, ⟨2, _⟩ => ⟨S1280x128, .f32⟩
  | .local _ .vmem, ⟨3, _⟩ => ⟨S128x128, .f32⟩
  | .local _ .vmem, ⟨4, _⟩ => ⟨S1024x128, .f32⟩
  | .local _ .vmem, ⟨5, _⟩ => ⟨S1024x128, .f32⟩
  | _, _ => ⟨S131072x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S131072x10_S10x131072_1_0 : S131072x10.Transposes [1, 0] S10x131072
  transposes_S128x10_S10x128_1_0 : S128x10.Transposes [1, 0] S10x128
  bcast_S10x128_S10x128x1_0_1 : S10x128.BroadcastsInDim S10x128x1 (![0, 1] : Fin 2 → Fin S10x128x1.rank)
  bcast_S10x128x1_S10x128x128_0_1_2 : S10x128x1.BroadcastsInDim S10x128x128 (![0, 1, 2] : Fin 3 → Fin S10x128x128.rank)
  shapeCasts_S10x128x128_S1280x128 : S10x128x128.ShapeCasts S1280x128
  inb_S128x128_S128x128_0_0 : ∀ a, (![0, 0] : Fin 2 → Nat) a + S128x128.size a ≤ S128x128.size a
  h_S128x128 : 0 < S128x128.numel
  inb_S10x1024_S1x128_0_0 : ∀ a, (![0, 0] : Fin 2 → Nat) a + S1x128.size a ≤ S10x1024.size a
  h_S1x128 : 0 < S1x128.numel
  shapeCasts_S1x128_S1x128 : S1x128.ShapeCasts S1x128
  inb_S1280x128_S128x128_0_0 : ∀ a, (![0, 0] : Fin 2 → Nat) a + S128x128.size a ≤ S1280x128.size a
  shapeCasts_S128x128_S128x128 : S128x128.ShapeCasts S128x128
  broadcasts_S1x128_S128x128 : S1x128.Broadcasts S128x128
  inb_S10x1024_S1x128_1_0 : ∀ a, (![1, 0] : Fin 2 → Nat) a + S1x128.size a ≤ S10x1024.size a
  inb_S1280x128_S128x128_128_0 : ∀ a, (![128, 0] : Fin 2 → Nat) a + S128x128.size a ≤ S1280x128.size a
  inb_S10x1024_S1x128_2_0 : ∀ a, (![2, 0] : Fin 2 → Nat) a + S1x128.size a ≤ S10x1024.size a
  inb_S1280x128_S128x128_256_0 : ∀ a, (![256, 0] : Fin 2 → Nat) a + S128x128.size a ≤ S1280x128.size a
  inb_S10x1024_S1x128_3_0 : ∀ a, (![3, 0] : Fin 2 → Nat) a + S1x128.size a ≤ S10x1024.size a
  inb_S1280x128_S128x128_384_0 : ∀ a, (![384, 0] : Fin 2 → Nat) a + S128x128.size a ≤ S1280x128.size a
  inb_S10x1024_S1x128_4_0 : ∀ a, (![4, 0] : Fin 2 → Nat) a + S1x128.size a ≤ S10x1024.size a
  inb_S1280x128_S128x128_512_0 : ∀ a, (![512, 0] : Fin 2 → Nat) a + S128x128.size a ≤ S1280x128.size a
  inb_S10x1024_S1x128_5_0 : ∀ a, (![5, 0] : Fin 2 → Nat) a + S1x128.size a ≤ S10x1024.size a
  inb_S1280x128_S128x128_640_0 : ∀ a, (![640, 0] : Fin 2 → Nat) a + S128x128.size a ≤ S1280x128.size a
  inb_S10x1024_S1x128_6_0 : ∀ a, (![6, 0] : Fin 2 → Nat) a + S1x128.size a ≤ S10x1024.size a
  inb_S1280x128_S128x128_768_0 : ∀ a, (![768, 0] : Fin 2 → Nat) a + S128x128.size a ≤ S1280x128.size a
  inb_S10x1024_S1x128_7_0 : ∀ a, (![7, 0] : Fin 2 → Nat) a + S1x128.size a ≤ S10x1024.size a
  inb_S1280x128_S128x128_896_0 : ∀ a, (![896, 0] : Fin 2 → Nat) a + S128x128.size a ≤ S1280x128.size a
  inb_S10x1024_S1x128_8_0 : ∀ a, (![8, 0] : Fin 2 → Nat) a + S1x128.size a ≤ S10x1024.size a
  inb_S1280x128_S128x128_1024_0 : ∀ a, (![1024, 0] : Fin 2 → Nat) a + S128x128.size a ≤ S1280x128.size a
  inb_S10x1024_S1x128_9_0 : ∀ a, (![9, 0] : Fin 2 → Nat) a + S1x128.size a ≤ S10x1024.size a
  inb_S1280x128_S128x128_1152_0 : ∀ a, (![1152, 0] : Fin 2 → Nat) a + S128x128.size a ≤ S1280x128.size a
  inb_S1024x128_S128x128_0_0 : ∀ a, (![0, 0] : Fin 2 → Nat) a + S128x128.size a ≤ S1024x128.size a
  inb_S10x1024_S1x128_0_128 : ∀ a, (![0, 128] : Fin 2 → Nat) a + S1x128.size a ≤ S10x1024.size a
  inb_S10x1024_S1x128_1_128 : ∀ a, (![1, 128] : Fin 2 → Nat) a + S1x128.size a ≤ S10x1024.size a
  inb_S10x1024_S1x128_2_128 : ∀ a, (![2, 128] : Fin 2 → Nat) a + S1x128.size a ≤ S10x1024.size a
  inb_S10x1024_S1x128_3_128 : ∀ a, (![3, 128] : Fin 2 → Nat) a + S1x128.size a ≤ S10x1024.size a
  inb_S10x1024_S1x128_4_128 : ∀ a, (![4, 128] : Fin 2 → Nat) a + S1x128.size a ≤ S10x1024.size a
  inb_S10x1024_S1x128_5_128 : ∀ a, (![5, 128] : Fin 2 → Nat) a + S1x128.size a ≤ S10x1024.size a
  inb_S10x1024_S1x128_6_128 : ∀ a, (![6, 128] : Fin 2 → Nat) a + S1x128.size a ≤ S10x1024.size a
  inb_S10x1024_S1x128_7_128 : ∀ a, (![7, 128] : Fin 2 → Nat) a + S1x128.size a ≤ S10x1024.size a
  inb_S10x1024_S1x128_8_128 : ∀ a, (![8, 128] : Fin 2 → Nat) a + S1x128.size a ≤ S10x1024.size a
  inb_S10x1024_S1x128_9_128 : ∀ a, (![9, 128] : Fin 2 → Nat) a + S1x128.size a ≤ S10x1024.size a
  inb_S1024x128_S128x128_128_0 : ∀ a, (![128, 0] : Fin 2 → Nat) a + S128x128.size a ≤ S1024x128.size a
  inb_S10x1024_S1x128_0_256 : ∀ a, (![0, 256] : Fin 2 → Nat) a + S1x128.size a ≤ S10x1024.size a
  inb_S10x1024_S1x128_1_256 : ∀ a, (![1, 256] : Fin 2 → Nat) a + S1x128.size a ≤ S10x1024.size a
  inb_S10x1024_S1x128_2_256 : ∀ a, (![2, 256] : Fin 2 → Nat) a + S1x128.size a ≤ S10x1024.size a
  inb_S10x1024_S1x128_3_256 : ∀ a, (![3, 256] : Fin 2 → Nat) a + S1x128.size a ≤ S10x1024.size a
  inb_S10x1024_S1x128_4_256 : ∀ a, (![4, 256] : Fin 2 → Nat) a + S1x128.size a ≤ S10x1024.size a
  inb_S10x1024_S1x128_5_256 : ∀ a, (![5, 256] : Fin 2 → Nat) a + S1x128.size a ≤ S10x1024.size a
  inb_S10x1024_S1x128_6_256 : ∀ a, (![6, 256] : Fin 2 → Nat) a + S1x128.size a ≤ S10x1024.size a
  inb_S10x1024_S1x128_7_256 : ∀ a, (![7, 256] : Fin 2 → Nat) a + S1x128.size a ≤ S10x1024.size a
  inb_S10x1024_S1x128_8_256 : ∀ a, (![8, 256] : Fin 2 → Nat) a + S1x128.size a ≤ S10x1024.size a
  inb_S10x1024_S1x128_9_256 : ∀ a, (![9, 256] : Fin 2 → Nat) a + S1x128.size a ≤ S10x1024.size a
  inb_S1024x128_S128x128_256_0 : ∀ a, (![256, 0] : Fin 2 → Nat) a + S128x128.size a ≤ S1024x128.size a
  inb_S10x1024_S1x128_0_384 : ∀ a, (![0, 384] : Fin 2 → Nat) a + S1x128.size a ≤ S10x1024.size a
  inb_S10x1024_S1x128_1_384 : ∀ a, (![1, 384] : Fin 2 → Nat) a + S1x128.size a ≤ S10x1024.size a
  inb_S10x1024_S1x128_2_384 : ∀ a, (![2, 384] : Fin 2 → Nat) a + S1x128.size a ≤ S10x1024.size a
  inb_S10x1024_S1x128_3_384 : ∀ a, (![3, 384] : Fin 2 → Nat) a + S1x128.size a ≤ S10x1024.size a
  inb_S10x1024_S1x128_4_384 : ∀ a, (![4, 384] : Fin 2 → Nat) a + S1x128.size a ≤ S10x1024.size a
  inb_S10x1024_S1x128_5_384 : ∀ a, (![5, 384] : Fin 2 → Nat) a + S1x128.size a ≤ S10x1024.size a
  inb_S10x1024_S1x128_6_384 : ∀ a, (![6, 384] : Fin 2 → Nat) a + S1x128.size a ≤ S10x1024.size a
  inb_S10x1024_S1x128_7_384 : ∀ a, (![7, 384] : Fin 2 → Nat) a + S1x128.size a ≤ S10x1024.size a
  inb_S10x1024_S1x128_8_384 : ∀ a, (![8, 384] : Fin 2 → Nat) a + S1x128.size a ≤ S10x1024.size a
  inb_S10x1024_S1x128_9_384 : ∀ a, (![9, 384] : Fin 2 → Nat) a + S1x128.size a ≤ S10x1024.size a
  inb_S1024x128_S128x128_384_0 : ∀ a, (![384, 0] : Fin 2 → Nat) a + S128x128.size a ≤ S1024x128.size a
  inb_S10x1024_S1x128_0_512 : ∀ a, (![0, 512] : Fin 2 → Nat) a + S1x128.size a ≤ S10x1024.size a
  inb_S10x1024_S1x128_1_512 : ∀ a, (![1, 512] : Fin 2 → Nat) a + S1x128.size a ≤ S10x1024.size a
  inb_S10x1024_S1x128_2_512 : ∀ a, (![2, 512] : Fin 2 → Nat) a + S1x128.size a ≤ S10x1024.size a
  inb_S10x1024_S1x128_3_512 : ∀ a, (![3, 512] : Fin 2 → Nat) a + S1x128.size a ≤ S10x1024.size a
  inb_S10x1024_S1x128_4_512 : ∀ a, (![4, 512] : Fin 2 → Nat) a + S1x128.size a ≤ S10x1024.size a
  inb_S10x1024_S1x128_5_512 : ∀ a, (![5, 512] : Fin 2 → Nat) a + S1x128.size a ≤ S10x1024.size a
  inb_S10x1024_S1x128_6_512 : ∀ a, (![6, 512] : Fin 2 → Nat) a + S1x128.size a ≤ S10x1024.size a
  inb_S10x1024_S1x128_7_512 : ∀ a, (![7, 512] : Fin 2 → Nat) a + S1x128.size a ≤ S10x1024.size a
  inb_S10x1024_S1x128_8_512 : ∀ a, (![8, 512] : Fin 2 → Nat) a + S1x128.size a ≤ S10x1024.size a
  inb_S10x1024_S1x128_9_512 : ∀ a, (![9, 512] : Fin 2 → Nat) a + S1x128.size a ≤ S10x1024.size a
  inb_S1024x128_S128x128_512_0 : ∀ a, (![512, 0] : Fin 2 → Nat) a + S128x128.size a ≤ S1024x128.size a
  inb_S10x1024_S1x128_0_640 : ∀ a, (![0, 640] : Fin 2 → Nat) a + S1x128.size a ≤ S10x1024.size a
  inb_S10x1024_S1x128_1_640 : ∀ a, (![1, 640] : Fin 2 → Nat) a + S1x128.size a ≤ S10x1024.size a
  inb_S10x1024_S1x128_2_640 : ∀ a, (![2, 640] : Fin 2 → Nat) a + S1x128.size a ≤ S10x1024.size a
  inb_S10x1024_S1x128_3_640 : ∀ a, (![3, 640] : Fin 2 → Nat) a + S1x128.size a ≤ S10x1024.size a
  inb_S10x1024_S1x128_4_640 : ∀ a, (![4, 640] : Fin 2 → Nat) a + S1x128.size a ≤ S10x1024.size a
  inb_S10x1024_S1x128_5_640 : ∀ a, (![5, 640] : Fin 2 → Nat) a + S1x128.size a ≤ S10x1024.size a
  inb_S10x1024_S1x128_6_640 : ∀ a, (![6, 640] : Fin 2 → Nat) a + S1x128.size a ≤ S10x1024.size a
  inb_S10x1024_S1x128_7_640 : ∀ a, (![7, 640] : Fin 2 → Nat) a + S1x128.size a ≤ S10x1024.size a
  inb_S10x1024_S1x128_8_640 : ∀ a, (![8, 640] : Fin 2 → Nat) a + S1x128.size a ≤ S10x1024.size a
  inb_S10x1024_S1x128_9_640 : ∀ a, (![9, 640] : Fin 2 → Nat) a + S1x128.size a ≤ S10x1024.size a
  inb_S1024x128_S128x128_640_0 : ∀ a, (![640, 0] : Fin 2 → Nat) a + S128x128.size a ≤ S1024x128.size a
  inb_S10x1024_S1x128_0_768 : ∀ a, (![0, 768] : Fin 2 → Nat) a + S1x128.size a ≤ S10x1024.size a
  inb_S10x1024_S1x128_1_768 : ∀ a, (![1, 768] : Fin 2 → Nat) a + S1x128.size a ≤ S10x1024.size a
  inb_S10x1024_S1x128_2_768 : ∀ a, (![2, 768] : Fin 2 → Nat) a + S1x128.size a ≤ S10x1024.size a
  inb_S10x1024_S1x128_3_768 : ∀ a, (![3, 768] : Fin 2 → Nat) a + S1x128.size a ≤ S10x1024.size a
  inb_S10x1024_S1x128_4_768 : ∀ a, (![4, 768] : Fin 2 → Nat) a + S1x128.size a ≤ S10x1024.size a
  inb_S10x1024_S1x128_5_768 : ∀ a, (![5, 768] : Fin 2 → Nat) a + S1x128.size a ≤ S10x1024.size a
  inb_S10x1024_S1x128_6_768 : ∀ a, (![6, 768] : Fin 2 → Nat) a + S1x128.size a ≤ S10x1024.size a
  inb_S10x1024_S1x128_7_768 : ∀ a, (![7, 768] : Fin 2 → Nat) a + S1x128.size a ≤ S10x1024.size a
  inb_S10x1024_S1x128_8_768 : ∀ a, (![8, 768] : Fin 2 → Nat) a + S1x128.size a ≤ S10x1024.size a
  inb_S10x1024_S1x128_9_768 : ∀ a, (![9, 768] : Fin 2 → Nat) a + S1x128.size a ≤ S10x1024.size a
  inb_S1024x128_S128x128_768_0 : ∀ a, (![768, 0] : Fin 2 → Nat) a + S128x128.size a ≤ S1024x128.size a
  inb_S10x1024_S1x128_0_896 : ∀ a, (![0, 896] : Fin 2 → Nat) a + S1x128.size a ≤ S10x1024.size a
  inb_S10x1024_S1x128_1_896 : ∀ a, (![1, 896] : Fin 2 → Nat) a + S1x128.size a ≤ S10x1024.size a
  inb_S10x1024_S1x128_2_896 : ∀ a, (![2, 896] : Fin 2 → Nat) a + S1x128.size a ≤ S10x1024.size a
  inb_S10x1024_S1x128_3_896 : ∀ a, (![3, 896] : Fin 2 → Nat) a + S1x128.size a ≤ S10x1024.size a
  inb_S10x1024_S1x128_4_896 : ∀ a, (![4, 896] : Fin 2 → Nat) a + S1x128.size a ≤ S10x1024.size a
  inb_S10x1024_S1x128_5_896 : ∀ a, (![5, 896] : Fin 2 → Nat) a + S1x128.size a ≤ S10x1024.size a
  inb_S10x1024_S1x128_6_896 : ∀ a, (![6, 896] : Fin 2 → Nat) a + S1x128.size a ≤ S10x1024.size a
  inb_S10x1024_S1x128_7_896 : ∀ a, (![7, 896] : Fin 2 → Nat) a + S1x128.size a ≤ S10x1024.size a
  inb_S10x1024_S1x128_8_896 : ∀ a, (![8, 896] : Fin 2 → Nat) a + S1x128.size a ≤ S10x1024.size a
  inb_S10x1024_S1x128_9_896 : ∀ a, (![9, 896] : Fin 2 → Nat) a + S1x128.size a ≤ S10x1024.size a
  inb_S1024x128_S128x128_896_0 : ∀ a, (![896, 0] : Fin 2 → Nat) a + S128x128.size a ≤ S1024x128.size a
  dot_S128x128_S128x128_S128x128_0_0_1_1_n_n_wf : DotDims.WF S128x128 S128x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10x1024.size a ≤ S10x131072.size a
  hwx0_0 : ∀ i : grid0.Coords, EltTy.bits .f32 = 32 ∨ (Rect.block (s := S10x131072) S10x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1280x128.size a ≤ S1280x128.size a
  hwx0_1 : ∀ i : grid0.Coords, EltTy.bits .f32 = 32 ∨ (Rect.block (s := S1280x128) S1280x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S131072x128.size a
  hwx0_3 : ∀ i : grid0.Coords, EltTy.bits .f32 = 32 ∨ (Rect.block (s := S131072x128) S1024x128.size (cc0_transform_3 i) (hinb0_3 i)).WholeWords (EltTy.packing .f32)

variable [Facts₀]

def dot_S128x128_S128x128_S128x128_0_0_1_1_n_n : DotDims S128x128 S128x128 S128x128 where
  lhsContracting := [0]
  rhsContracting := [0]
  lhsNonContracting := [1]
  rhsNonContracting := [1]
  lhsBatch := []
  rhsBatch := []
  wf := dot_S128x128_S128x128_S128x128_0_0_1_1_n_n_wf

abbrev win0_0 : Pipeline.Window sig grid0 :=
  Pipeline.Window.ofSpec (Memref.whole main_v0) S10x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1280x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x10 : Shape := ⟨2, ![131072, 10]⟩
abbrev S128x10 : Shape := ⟨2, ![128, 10]⟩
abbrev S128x128 : Shape := ⟨2, ![128, 128]⟩
abbrev S131072x1x10 : Shape := ⟨3, ![131072, 1, 10]⟩
abbrev S1x128x10 : Shape := ⟨3, ![1, 128, 10]⟩
abbrev S131072x128x10 : Shape := ⟨3, ![131072, 128, 10]⟩
abbrev S_ : Shape := ⟨0, ![]⟩
abbrev S131072x128 : Shape := ⟨2, ![131072, 128]⟩

abbrev nBuf : Space → Nat
  | .hbm => 17
  | .vmem => 0
  | .smem => 0
  | _ => 0

abbrev bufTy : (tb : Table) → Fin (tcTables nBuf tb) → BufTy
  | .hbm, ⟨0, _⟩ => ⟨S131072x10, .f32⟩
  | .hbm, ⟨1, _⟩ => ⟨S128x10, .f32⟩
  | .hbm, ⟨2, _⟩ => ⟨S128x128, .f32⟩
  | .hbm, ⟨3, _⟩ => ⟨S131072x1x10, .f32⟩
  | .hbm, ⟨4, _⟩ => ⟨S1x128x10, .f32⟩
  | .hbm, ⟨5, _⟩ => ⟨S131072x128x10, .f32⟩
  | .hbm, ⟨6, _⟩ => ⟨S131072x128x10, .f32⟩
  | .hbm, ⟨7, _⟩ => ⟨S131072x128x10, .f32⟩
  | .hbm, ⟨8, _⟩ => ⟨S131072x128x10, .f32⟩
  | .hbm, ⟨9, _⟩ => ⟨S_, .f32⟩
  | .hbm, ⟨10, _⟩ => ⟨S131072x128, .f32⟩
  | .hbm, ⟨11, _⟩ => ⟨S131072x128, .f32⟩
  | .hbm, ⟨12, _⟩ => ⟨S_, .f32⟩
  | .hbm, ⟨13, _⟩ => ⟨S131072x128, .f32⟩
  | .hbm, ⟨14, _⟩ => ⟨S131072x128, .f32⟩
  | .hbm, ⟨15, _⟩ => ⟨S131072x128, .f32⟩
  | .hbm, ⟨16, _⟩ => ⟨S131072x128, .f32⟩
  | _, _ => ⟨S131072x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S131072x10_S131072x1x10_0_2 : S131072x10.BroadcastsInDim S131072x1x10 (![0, 2] : Fin 2 → Fin S131072x1x10.rank)
  bcast_S128x10_S1x128x10_1_2 : S128x10.BroadcastsInDim S1x128x10 (![1, 2] : Fin 2 → Fin S1x128x10.rank)
  bcast_S131072x1x10_S131072x128x10_0_1_2 : S131072x1x10.BroadcastsInDim S131072x128x10 (![0, 1, 2] : Fin 3 → Fin S131072x128x10.rank)
  bcast_S1x128x10_S131072x128x10_0_1_2 : S1x128x10.BroadcastsInDim S131072x128x10 (![0, 1, 2] : Fin 3 → Fin S131072x128x10.rank)
  reducesTo_S131072x128x10_S131072x128_d2 : S131072x128x10.ReducesTo [2] S131072x128
  h_S_ : 0 < S_.numel
  bcast_S_S131072x128 : S_.BroadcastsInDim S131072x128 (![] : Fin 0 → Fin S131072x128.rank)
  dot_S131072x128_S128x128_S131072x128_1_0_0_1_n_n_wf : DotDims.WF S131072x128 S128x128 S131072x128 [1] [0] [0] [1] [] []

variable [Facts₀]

def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf

class Facts : Prop extends Facts₀ where

variable [Facts]
-- ==== Proof.Spec.lean ====
/-
  The Laplace product kernel followed by a matrix product, as one function of its three argument arrays, and the
  algebra that joins the two arrangements the programs compute it in.

  For points `X n` and `P m` of a ten-dimensional space and a 128 × 128 matrix `C`,
      tmk X P C n j = ∑ m, exp (-(∑ d, |X n d - P m d|)) · C m j
  on the extended reals. One program forms `|X n d - P m d|`, sums the ten terms from an initial `0`, negates and
  divides by `1`; the other forms `|P m d - X n d|`, adds the ten terms left to right and subtracts the sum from `0`.
  On the extended reals `|a - b| = |b - a|` needs `a` and `b` finite (`⊤ - ⊤ = ⊥` but `-(⊤ - ⊤) = ⊤`), and that
  is the only place finiteness enters; the rest — `0 + s = s`, `0 - s = -s`, `s / 1 = s`, regrouping ten summands —
  holds for all extended reals.
-/
import Idealize.ShloMosaic.PureOps.Ideal
import Idealize.ShloMosaic.PureOps.Ideal.Laws
import Idealize.ShloMosaic.Lib.ValueIdx

noncomputable section

namespace Cert.Tmk

open Idealize.ShloMosaic

/-- The absolute value of the ideal instance, `max a (-a)`. -/
abbrev absE (a : EReal) : EReal := max a (-a)

/-- The word `1.0` denotes the real `1`. -/
theorem ofBits_one : Ideal.ofBits .f32 0x3F800000#32 = 1 := by
  simp [Ideal.ofBits, Ideal.ieee, -EReal.coe_mul]; norm_num

/-- Dividing by the word `1.0` changes nothing, at any extended real. -/
theorem div_one_word (x : EReal) : Ideal.div x (Ideal.ofBits .f32 0x3F800000#32) = x := by
  rw [ofBits_one, show (1 : EReal) = ((1 : ℝ) : EReal) from rfl, Ideal.div_coe one_ne_zero]
  norm_num

/-- For FINITE `a`, `b` the distance is symmetric. -/
theorem absE_sub_comm {a b : EReal} (ha : a ≠ ⊤) (ha' : a ≠ ⊥) (hb : b ≠ ⊤) (hb' : b ≠ ⊥) :
    absE (a - b) = absE (b - a) := by
  lift a to ℝ using ⟨ha, ha'⟩
  lift b to ℝ using ⟨hb, hb'⟩
  unfold absE
  rw [← EReal.coe_sub, ← EReal.coe_sub, ← EReal.coe_neg, ← EReal.coe_neg, neg_sub, neg_sub, max_comm]

/-- Ten summands, added left to right, are their sum over `Fin 10`. -/
theorem sum_ten (f : Fin 10 → EReal) :
    f 0 + f 1 + f 2 + f 3 + f 4 + f 5 + f 6 + f 7 + f 8 + f 9 = ∑ d : Fin 10, f d := by
  simp only [Fin.sum_univ_succ, Fin.sum_univ_zero, add_zero, ← add_assoc]
  rfl

/-- The exponent as the reference forms it: the ten distances summed from the word `0.0`, negated, divided by the word `1.0`. -/
def expo (x p : Fin 10 → EReal) : EReal :=
  Ideal.div (-(Ideal.ofBits .f32 0x00000000#32 + ∑ d : Fin 10, absE (x d - p d))) (Ideal.ofBits .f32 0x3F800000#32)

/-- THE LAW: the kernel's exponent — the ten distances `|p d - x d|` added left to right and subtracted from the word
    `0.0` — is the reference's, when every coordinate is finite. -/
theorem zero_sub_sum_eq_expo (x p : Fin 10 → EReal) (hx : ∀ d, x d ≠ ⊤ ∧ x d ≠ ⊥) (hp : ∀ d, p d ≠ ⊤ ∧ p d ≠ ⊥) :
    Ideal.ofBits .f32 0x00000000#32
        - (absE (p 0 - x 0) + absE (p 1 - x 1) + absE (p 2 - x 2) + absE (p 3 - x 3) + absE (p 4 - x 4)
          + absE (p 5 - x 5) + absE (p 6 - x 6) + absE (p 7 - x 7) + absE (p 8 - x 8) + absE (p 9 - x 9))
      = expo x p := by
  unfold expo
  rw [div_one_word, Ideal.ofBits_zero_f32, zero_add, zero_sub, sum_ten (fun d => absE (p d - x d))]
  exact congrArg Neg.neg (Finset.sum_congr rfl fun d _ =>
    absE_sub_comm (hp d).1 (hp d).2 (hx d).1 (hx d).2)

/-- The specification: row `n` of `X` against every point `P m`, weighted by column `j` of `C`. -/
def tmk (X : Fin 131072 → Fin 10 → EReal) (P : Fin 128 → Fin 10 → EReal) (C : Fin 128 → Fin 128 → EReal)
    (n : Fin 131072) (j : Fin 128) : EReal :=
  ∑ m : Fin 128, Ideal.exp (expo (X n) (P m)) * C m j

/-- The result array: entry `(n, j)` is `tmk` of row `n` of the points, every grid point and column `j` of the matrix. -/
def result (X : (⟨2, ![131072, 10]⟩ : Shape).Idx → EReal) (P : (⟨2, ![128, 10]⟩ : Shape).Idx → EReal)
    (C : (⟨2, ![128, 128]⟩ : Shape).Idx → EReal) : (⟨2, ![131072, 128]⟩ : Shape).Idx → EReal :=
  fun i => tmk (fun n d => X (ValueIdx.ix2 n d)) (fun m d => P (ValueIdx.ix2 m d)) (fun m j => C (ValueIdx.ix2 m j)) (i 0) (i 1)

end Cert.Tmk

end
-- ==== Proof.Chunk.lean ====
/-
  One 128-row chunk of the kernel's output block, as a function of what the body loads for it.

  The body treats its 1024 rows in eight chunks of 128. For a chunk it loads, for each of the ten coordinates `d`, one
  row `xr d` of the transposed points (lane `n` of the row is coordinate `d` of point `n` of the chunk) and one
  128 × 128 tile `pb d` of the lane-replicated table (entry `(m, n)` is coordinate `d` of grid point `m`, whatever the lane `n`);
  it forms `|pb d - xr d|` with the row spread over the 128 sublanes, adds the ten tiles left to right, takes
  `exp (0 - ·)`, and contracts the FIRST axis of the result against the first axis of the matrix `c`:
      chunk (n, j) = ∑ m, exp (0 - (|pb 0 (m, n) - xr 0 (0, n)| + … + |pb 9 (m, n) - xr 9 (0, n)|)) · c (m, j).
  The printed body cuts its straight-line text into parts at fixed lengths, so each of the eight stores' payloads is a different
  nesting of the same operations; unfolded, all eight are `chunk` of their loads.
-/
import proofs.«124527_g10067403342211_week1_w1_198_11_alg».proof.Proof.Gen.KernelIdeal.Frame
import proofs.«124527_g10067403342211_week1_w1_198_11_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Block

open Cert.KernelIdeal Cert.KernelIdeal.Gen Idealize.ShloMosaic Idealize.ShloMosaic.TcCoe Idealize.ShloMosaic.ValueIdx
open Cert.Tmk (absE)

variable {F : FTy → Type} [FloatOps F]

/-- One coordinate's tile of distances: the table's tile minus the points' row spread over the sublanes, in absolute value. -/
def dist (xr : Vec F S1x128 .f32) (pb : Vec F S128x128 .f32) : FVec F S128x128 .f32 :=
  absf (subf (shapeCast S128x128 pb shapeCasts_S128x128_S128x128)
    (broadcastTo S128x128 (shapeCast S1x128 xr shapeCasts_S1x128_S1x128) broadcasts_S1x128_S128x128))

/-- One chunk: the ten tiles of distances added left to right, `exp (0 - ·)`, contracted on the first axis against `c`. -/
def chunk (c : Vec F S128x128 .f32) (xr0 : Vec F S1x128 .f32) (pb0 : Vec F S128x128 .f32) (xr1 : Vec F S1x128 .f32) (pb1 : Vec F S128x128 .f32) (xr2 : Vec F S1x128 .f32) (pb2 : Vec F S128x128 .f32) (xr3 : Vec F S1x128 .f32) (pb3 : Vec F S128x128 .f32) (xr4 : Vec F S1x128 .f32) (pb4 : Vec F S128x128 .f32) (xr5 : Vec F S1x128 .f32) (pb5 : Vec F S128x128 .f32) (xr6 : Vec F S1x128 .f32) (pb6 : Vec F S128x128 .f32) (xr7 : Vec F S1x128 .f32) (pb7 : Vec F S128x128 .f32) (xr8 : Vec F S1x128 .f32) (pb8 : Vec F S128x128 .f32) (xr9 : Vec F S1x128 .f32) (pb9 : Vec F S128x128 .f32) : FVec F S128x128 .f32 :=
  matmul dot_S128x128_S128x128_S128x128_0_0_1_1_n_n none
    (exp (subf (broadcast S128x128 (Scalar.ofBits .f32 0x00000000#32))
      (addf (addf (addf (addf (addf (addf (addf (addf (addf (dist xr0 pb0) (dist xr1 pb1)) (dist xr2 pb2)) (dist xr3 pb3)) (dist xr4 pb4)) (dist xr5 pb5)) (dist xr6 pb6)) (dist xr7 pb7)) (dist xr8 pb8)) (dist xr9 pb9))))
    c (constant S128x128 .f32 0x00000000#32)

/-- What the body leaves in the output block's buffer is eight chunks, one per 128 rows (the payloads unfolded). -/
theorem out0_3_eq (x0 : Vec F S10x1024 .f32) (x1 : Vec F S1280x128 .f32) (x2 : Vec F S128x128 .f32) :
    out0_3 x0 x1 x2 = View.canon [
    ⟨r0_98, chunk (View.ld x2 r0_0) (View.ld x0 r0_88) (View.ld x1 r0_2) (View.ld x0 r0_89) (View.ld x1 r0_4) (View.ld x0 r0_90) (View.ld x1 r0_6) (View.ld x0 r0_91) (View.ld x1 r0_8) (View.ld x0 r0_92) (View.ld x1 r0_10) (View.ld x0 r0_93) (View.ld x1 r0_12) (View.ld x0 r0_94) (View.ld x1 r0_14) (View.ld x0 r0_95) (View.ld x1 r0_16) (View.ld x0 r0_96) (View.ld x1 r0_18) (View.ld x0 r0_97) (View.ld x1 r0_20)⟩,
    ⟨r0_87, chunk (View.ld x2 r0_0) (View.ld x0 r0_77) (View.ld x1 r0_2) (View.ld x0 r0_78) (View.ld x1 r0_4) (View.ld x0 r0_79) (View.ld x1 r0_6) (View.ld x0 r0_80) (View.ld x1 r0_8) (View.ld x0 r0_81) (View.ld x1 r0_10) (View.ld x0 r0_82) (View.ld x1 r0_12) (View.ld x0 r0_83) (View.ld x1 r0_14) (View.ld x0 r0_84) (View.ld x1 r0_16) (View.ld x0 r0_85) (View.ld x1 r0_18) (View.ld x0 r0_86) (View.ld x1 r0_20)⟩,
    ⟨r0_76, chunk (View.ld x2 r0_0) (View.ld x0 r0_66) (View.ld x1 r0_2) (View.ld x0 r0_67) (View.ld x1 r0_4) (View.ld x0 r0_68) (View.ld x1 r0_6) (View.ld x0 r0_69) (View.ld x1 r0_8) (View.ld x0 r0_70) (View.ld x1 r0_10) (View.ld x0 r0_71) (View.ld x1 r0_12) (View.ld x0 r0_72) (View.ld x1 r0_14) (View.ld x0 r0_73) (View.ld x1 r0_16) (View.ld x0 r0_74) (View.ld x1 r0_18) (View.ld x0 r0_75) (View.ld x1 r0_20)⟩,
    ⟨r0_65, chunk (View.ld x2 r0_0) (View.ld x0 r0_55) (View.ld x1 r0_2) (View.ld x0 r0_56) (View.ld x1 r0_4) (View.ld x0 r0_57) (View.ld x1 r0_6) (View.ld x0 r0_58) (View.ld x1 r0_8) (View.ld x0 r0_59) (View.ld x1 r0_10) (View.ld x0 r0_60) (View.ld x1 r0_12) (View.ld x0 r0_61) (View.ld x1 r0_14) (View.ld x0 r0_62) (View.ld x1 r0_16) (View.ld x0 r0_63) (View.ld x1 r0_18) (View.ld x0 r0_64) (View.ld x1 r0_20)⟩,
    ⟨r0_54, chunk (View.ld x2 r0_0) (View.ld x0 r0_44) (View.ld x1 r0_2) (View.ld x0 r0_45) (View.ld x1 r0_4) (View.ld x0 r0_46) (View.ld x1 r0_6) (View.ld x0 r0_47) (View.ld x1 r0_8) (View.ld x0 r0_48) (View.ld x1 r0_10) (View.ld x0 r0_49) (View.ld x1 r0_12) (View.ld x0 r0_50) (View.ld x1 r0_14) (View.ld x0 r0_51) (View.ld x1 r0_16) (View.ld x0 r0_52) (View.ld x1 r0_18) (View.ld x0 r0_53) (View.ld x1 r0_20)⟩,
    ⟨r0_43, chunk (View.ld x2 r0_0) (View.ld x0 r0_33) (View.ld x1 r0_2) (View.ld x0 r0_34) (View.ld x1 r0_4) (View.ld x0 r0_35) (View.ld x1 r0_6) (View.ld x0 r0_36) (View.ld x1 r0_8) (View.ld x0 r0_37) (View.ld x1 r0_10) (View.ld x0 r0_38) (View.ld x1 r0_12) (View.ld x0 r0_39) (View.ld x1 r0_14) (View.ld x0 r0_40) (View.ld x1 r0_16) (View.ld x0 r0_41) (View.ld x1 r0_18) (View.ld x0 r0_42) (View.ld x1 r0_20)⟩,
    ⟨r0_32, chunk (View.ld x2 r0_0) (View.ld x0 r0_22) (View.ld x1 r0_2) (View.ld x0 r0_23) (View.ld x1 r0_4) (View.ld x0 r0_24) (View.ld x1 r0_6) (View.ld x0 r0_25) (View.ld x1 r0_8) (View.ld x0 r0_26) (View.ld x1 r0_10) (View.ld x0 r0_27) (View.ld x1 r0_12) (View.ld x0 r0_28) (View.ld x1 r0_14) (View.ld x0 r0_29) (View.ld x1 r0_16) (View.ld x0 r0_30) (View.ld x1 r0_18) (View.ld x0 r0_31) (View.ld x1 r0_20)⟩,
    ⟨r0_21, chunk (View.ld x2 r0_0) (View.ld x0 r0_1) (View.ld x1 r0_2) (View.ld x0 r0_3) (View.ld x1 r0_4) (View.ld x0 r0_5) (View.ld x1 r0_6) (View.ld x0 r0_7) (View.ld x1 r0_8) (View.ld x0 r0_9) (View.ld x1 r0_10) (View.ld x0 r0_11) (View.ld x1 r0_12) (View.ld x0 r0_13) (View.ld x1 r0_14) (View.ld x0 r0_15) (View.ld x1 r0_16) (View.ld x0 r0_17) (View.ld x1 r0_18) (View.ld x0 r0_19) (View.ld x1 r0_20)⟩] := rfl

/-! ## A chunk at an index, on the extended reals -/

theorem lhs_axis0 (i : S128x128.Idx) (q : dot_S128x128_S128x128_S128x128_0_0_1_1_n_n.contr.Idx) :
    (dot_S128x128_S128x128_S128x128_0_0_1_1_n_n.lhsIdx i q 0).val = (q ⟨0, by decide⟩).val :=
  dot_S128x128_S128x128_S128x128_0_0_1_1_n_n.lhsIdx_val_of_single rfl i q
theorem lhs_axis1 (i : S128x128.Idx) (q : dot_S128x128_S128x128_S128x128_0_0_1_1_n_n.contr.Idx) :
    (dot_S128x128_S128x128_S128x128_0_0_1_1_n_n.lhsIdx i q 1).val = (i 0).val := by
  unfold DotDims.lhsIdx
  rw [dif_neg (show ¬(1 : Fin S128x128.rank) ∈ dot_S128x128_S128x128_S128x128_0_0_1_1_n_n.lhsBatch by decide), dif_pos (show (1 : Fin S128x128.rank) ∈ dot_S128x128_S128x128_S128x128_0_0_1_1_n_n.lhsNonContracting by decide)]
  rfl
theorem rhs_axis0 (i : S128x128.Idx) (q : dot_S128x128_S128x128_S128x128_0_0_1_1_n_n.contr.Idx) :
    (dot_S128x128_S128x128_S128x128_0_0_1_1_n_n.rhsIdx i q 0).val = (q ⟨0, by decide⟩).val :=
  dot_S128x128_S128x128_S128x128_0_0_1_1_n_n.rhsIdx_val_of_single rfl i q
theorem rhs_axis1 (i : S128x128.Idx) (q : dot_S128x128_S128x128_S128x128_0_0_1_1_n_n.contr.Idx) :
    (dot_S128x128_S128x128_S128x128_0_0_1_1_n_n.rhsIdx i q 1).val = (i 1).val := by
  unfold DotDims.rhsIdx
  rw [dif_neg (show ¬(1 : Fin S128x128.rank) ∈ dot_S128x128_S128x128_S128x128_0_0_1_1_n_n.rhsBatch by decide), dif_pos (show (1 : Fin S128x128.rank) ∈ dot_S128x128_S128x128_S128x128_0_0_1_1_n_n.rhsNonContracting by decide)]
  rfl

/-- A tile of distances at sublane `m`, lane `n`. -/
theorem dist_apply (xr : Vec Ideal S1x128 .f32) (pb : Vec Ideal S128x128 .f32) (m n : Fin 128) :
    dist (F := Ideal) xr pb (ix2 m n) = absE (pb (ix2 m n) - xr (ix2 0 n)) := by
  unfold dist
  rw [shapeCast_self, shapeCast_self]
  show absE (pb (ix2 m n) - broadcastTo S128x128 xr broadcasts_S1x128_S128x128 (ix2 m n)) = _
  rw [broadcastTo_apply xr broadcasts_S1x128_S128x128 (ix2 m n) (ix2 0 n) (fun a => match a with
    | ⟨0, _⟩ => by show (0 : Nat) = if (1 : Nat) = 1 then 0 else m.val; rw [if_pos rfl]
    | ⟨1, _⟩ => by show n.val = if (128 : Nat) = 1 then 0 else n.val; rw [if_neg (by decide)])]

/-- A chunk at row `n`, column `j`: the sum over the grid points `m`. -/
theorem chunk_apply (c : Vec Ideal S128x128 .f32) (xr0 : Vec Ideal S1x128 .f32) (pb0 : Vec Ideal S128x128 .f32) (xr1 : Vec Ideal S1x128 .f32) (pb1 : Vec Ideal S128x128 .f32) (xr2 : Vec Ideal S1x128 .f32) (pb2 : Vec Ideal S128x128 .f32) (xr3 : Vec Ideal S1x128 .f32) (pb3 : Vec Ideal S128x128 .f32) (xr4 : Vec Ideal S1x128 .f32) (pb4 : Vec Ideal S128x128 .f32) (xr5 : Vec Ideal S1x128 .f32) (pb5 : Vec Ideal S128x128 .f32) (xr6 : Vec Ideal S1x128 .f32) (pb6 : Vec Ideal S128x128 .f32) (xr7 : Vec Ideal S1x128 .f32) (pb7 : Vec Ideal S128x128 .f32) (xr8 : Vec Ideal S1x128 .f32) (pb8 : Vec Ideal S128x128 .f32) (xr9 : Vec Ideal S1x128 .f32) (pb9 : Vec Ideal S128x128 .f32) (n j : Fin 128) :
    chunk (F := Ideal) c xr0 pb0 xr1 pb1 xr2 pb2 xr3 pb3 xr4 pb4 xr5 pb5 xr6 pb6 xr7 pb7 xr8 pb8 xr9 pb9 (ix2 n j)
      = ∑ m : Fin 128, Ideal.exp (Ideal.ofBits .f32 0x00000000#32
          - (absE (pb0 (ix2 m n) - xr0 (ix2 0 n)) + absE (pb1 (ix2 m n) - xr1 (ix2 0 n)) + absE (pb2 (ix2 m n) - xr2 (ix2 0 n)) + absE (pb3 (ix2 m n) - xr3 (ix2 0 n)) + absE (pb4 (ix2 m n) - xr4 (ix2 0 n)) + absE (pb5 (ix2 m n) - xr5 (ix2 0 n)) + absE (pb6 (ix2 m n) - xr6 (ix2 0 n)) + absE (pb7 (ix2 m n) - xr7 (ix2 0 n)) + absE (pb8 (ix2 m n) - xr8 (ix2 0 n)) + absE (pb9 (ix2 m n) - xr9 (ix2 0 n)))) * c (ix2 m j) := by
  unfold chunk
  refine (Ideal.matmul_constant_zero_apply dot_S128x128_S128x128_S128x128_0_0_1_1_n_n none _ c (ix2 n j)).trans ?_
  rw [← Equiv.sum_comp (ValueIdx.contrEquiv1 dot_S128x128_S128x128_S128x128_0_0_1_1_n_n 128 rfl rfl).symm]
  refine Finset.sum_congr rfl fun k _ => ?_
  have hk := ValueIdx.contrEquiv1_symm_val dot_S128x128_S128x128_S128x128_0_0_1_1_n_n 128 rfl rfl k
  have el : dot_S128x128_S128x128_S128x128_0_0_1_1_n_n.lhsIdx (ix2 n j) ((ValueIdx.contrEquiv1 dot_S128x128_S128x128_S128x128_0_0_1_1_n_n 128 rfl rfl).symm k) = ix2 k n := funext fun a => Fin.ext (by
    match a with
    | ⟨0, _⟩ => exact (lhs_axis0 _ _).trans hk
    | ⟨1, _⟩ => exact lhs_axis1 _ _)
  have er : dot_S128x128_S128x128_S128x128_0_0_1_1_n_n.rhsIdx (ix2 n j) ((ValueIdx.contrEquiv1 dot_S128x128_S128x128_S128x128_0_0_1_1_n_n 128 rfl rfl).symm k) = ix2 k j := funext fun a => Fin.ext (by
    match a with
    | ⟨0, _⟩ => exact (rhs_axis0 _ _).trans hk
    | ⟨1, _⟩ => exact rhs_axis1 _ _)
  rw [el, er]
  show Ideal.exp (Ideal.ofBits .f32 0x00000000#32 - (dist (F := Ideal) xr0 pb0 (ix2 k n) + dist (F := Ideal) xr1 pb1 (ix2 k n) + dist (F := Ideal) xr2 pb2 (ix2 k n) + dist (F := Ideal) xr3 pb3 (ix2 k n) + dist (F := Ideal) xr4 pb4 (ix2 k n) + dist (F := Ideal) xr5 pb5 (ix2 k n) + dist (F := Ideal) xr6 pb6 (ix2 k n) + dist (F := Ideal) xr7 pb7 (ix2 k n) + dist (F := Ideal) xr8 pb8 (ix2 k n) + dist (F := Ideal) xr9 pb9 (ix2 k n))) * c (ix2 k j) = _
  simp only [dist_apply]

end Cert.KernelIdeal.Block

end
-- ==== Proof.BlockFn.lean ====
/-
  The kernel's whole output block as one function of its three input blocks.

  Row `r` of the 1024-row block lies in chunk `r / 128` at lane `r % 128`; the body's chunk for those rows reads row `d` of the
  transposed points at columns `128 (r / 128) … + 127`, i.e. at column `r` itself, and tile `d` of the table at lane `r % 128`. So
      block (r, j) = ∑ m, exp (0 - (|T (128·0 + m, r % 128) - Xt (0, r)| + … + |T (128·9 + m, r % 128) - Xt (9, r)|)) · C (m, j)
  for the block `Xt` of transposed points, the table `T` and the matrix `C`: each of the eight stores writes the 128 rows of this
  function that its rectangle names, and the eight rectangles tile the block.
-/
import proofs.«124527_g10067403342211_week1_w1_198_11_alg».proof.Proof.Chunk

set_option maxRecDepth 16384

noncomputable section

namespace Cert.KernelIdeal.Block

open Cert.KernelIdeal Cert.KernelIdeal.Gen Idealize.ShloMosaic Idealize.ShloMosaic.TcCoe Idealize.ShloMosaic.ValueIdx
open Cert.Tmk (absE)

/-- The lane a row of the block is computed in. -/
def lane (r : Fin 1024) : Fin 128 := ⟨r.val % 128, Nat.mod_lt _ (by decide)⟩

/-- The table's row for coordinate `d` and grid point `m`. -/
def tableRow (d : Fin 10) (m : Fin 128) : Fin 1280 := ⟨128 * d.val + m.val, by have := d.isLt; have := m.isLt; omega⟩

/-- The output block, index by index, from the block of transposed points, the table and the matrix. -/
def blockFn (x0 : Vec Ideal S10x1024 .f32) (x1 : Vec Ideal S1280x128 .f32) (x2 : Vec Ideal S128x128 .f32) : Vec Ideal S1024x128 .f32 :=
  fun y => ∑ m : Fin 128, Ideal.exp (Ideal.ofBits .f32 0x00000000#32
      - (absE (x1 (ix2 (tableRow 0 m) (lane (y 0))) - x0 (ix2 0 (y 0))) + absE (x1 (ix2 (tableRow 1 m) (lane (y 0))) - x0 (ix2 1 (y 0))) + absE (x1 (ix2 (tableRow 2 m) (lane (y 0))) - x0 (ix2 2 (y 0))) + absE (x1 (ix2 (tableRow 3 m) (lane (y 0))) - x0 (ix2 3 (y 0))) + absE (x1 (ix2 (tableRow 4 m) (lane (y 0))) - x0 (ix2 4 (y 0))) + absE (x1 (ix2 (tableRow 5 m) (lane (y 0))) - x0 (ix2 5 (y 0))) + absE (x1 (ix2 (tableRow 6 m) (lane (y 0))) - x0 (ix2 6 (y 0))) + absE (x1 (ix2 (tableRow 7 m) (lane (y 0))) - x0 (ix2 7 (y 0))) + absE (x1 (ix2 (tableRow 8 m) (lane (y 0))) - x0 (ix2 8 (y 0))) + absE (x1 (ix2 (tableRow 9 m) (lane (y 0))) - x0 (ix2 9 (y 0))))) * x2 (ix2 m (y 1))

/-- One coordinate's distance, as a chunk loads it (tile `pn = 128 d` of the table at lane `n`; row `dn = d` of the points at
    column `128 q + n`), is the block function's term at row `r = 128 q + n`. -/
theorem term_eq (x0 : Vec Ideal S10x1024 .f32) (x1 : Vec Ideal S1280x128 .f32) (d : Fin 10) (q dn pn : Nat)
    (hd : dn = d.val) (hp : pn = 128 * d.val)
    (ip : ∀ a, (![pn, 0] : Fin 2 → Nat) a + S128x128.size a ≤ S1280x128.size a)
    (ix : ∀ a, (![dn, 128 * q] : Fin 2 → Nat) a + S1x128.size a ≤ S10x1024.size a)
    (m n : Fin 128) (r : Fin 1024) (hr : r.val = 128 * q + 1 * n.val) :
    absE (View.ld x1 (Rect.unit (s := S1280x128) ![pn, 0] S128x128.size ip) (ix2 m n) - View.ld x0 (Rect.unit (s := S10x1024) ![dn, 128 * q] S1x128.size ix) (ix2 0 n))
      = absE (x1 (ix2 (tableRow d m) (lane r)) - x0 (ix2 d r)) := by
  have e1 : View.ld x1 (Rect.unit (s := S1280x128) ![pn, 0] S128x128.size ip) (ix2 m n) = x1 (ix2 (tableRow d m) (lane r)) :=
    congrArg x1 (funext fun a => Fin.ext (by
      match a with
      | ⟨0, _⟩ => show pn + 1 * m.val = 128 * d.val + m.val; omega
      | ⟨1, _⟩ => show 0 + 1 * n.val = r.val % 128; have := n.isLt; omega))
  have e0 : View.ld x0 (Rect.unit (s := S10x1024) ![dn, 128 * q] S1x128.size ix) (ix2 0 n) = x0 (ix2 d r) :=
    congrArg x0 (funext fun a => Fin.ext (by
      match a with
      | ⟨0, _⟩ => show dn + 1 * 0 = d.val; omega
      | ⟨1, _⟩ => show 128 * q + 1 * n.val = r.val; omega))
  rw [e1, e0]

/-- CHUNK `q` IS ROWS `128 q … 128 q + 127` OF THE BLOCK FUNCTION: the chunk of the loads the body makes for it, at a local index,
    is `blockFn` at the index its store's rectangle places there. -/
theorem chunk_eq_blockFn (x0 : Vec Ideal S10x1024 .f32) (x1 : Vec Ideal S1280x128 .f32) (x2 : Vec Ideal S128x128 .f32) (q : Nat)
    (io : ∀ a, (![128 * q, 0] : Fin 2 → Nat) a + S128x128.size a ≤ S1024x128.size a := by decide)
    (ic : ∀ a, (![0, 0] : Fin 2 → Nat) a + S128x128.size a ≤ S128x128.size a := by decide)
    (hx0 : ∀ a, (![0, 128 * q] : Fin 2 → Nat) a + S1x128.size a ≤ S10x1024.size a := by decide) (hp0 : ∀ a, (![0, 0] : Fin 2 → Nat) a + S128x128.size a ≤ S1280x128.size a := by decide)
    (hx1 : ∀ a, (![1, 128 * q] : Fin 2 → Nat) a + S1x128.size a ≤ S10x1024.size a := by decide) (hp1 : ∀ a, (![128, 0] : Fin 2 → Nat) a + S128x128.size a ≤ S1280x128.size a := by decide)
    (hx2 : ∀ a, (![2, 128 * q] : Fin 2 → Nat) a + S1x128.size a ≤ S10x1024.size a := by decide) (hp2 : ∀ a, (![256, 0] : Fin 2 → Nat) a + S128x128.size a ≤ S1280x128.size a := by decide)
    (hx3 : ∀ a, (![3, 128 * q] : Fin 2 → Nat) a + S1x128.size a ≤ S10x1024.size a := by decide) (hp3 : ∀ a, (![384, 0] : Fin 2 → Nat) a + S128x128.size a ≤ S1280x128.size a := by decide)
    (hx4 : ∀ a, (![4, 128 * q] : Fin 2 → Nat) a + S1x128.size a ≤ S10x1024.size a := by decide) (hp4 : ∀ a, (![512, 0] : Fin 2 → Nat) a + S128x128.size a ≤ S1280x128.size a := by decide)
    (hx5 : ∀ a, (![5, 128 * q] : Fin 2 → Nat) a + S1x128.size a ≤ S10x1024.size a := by decide) (hp5 : ∀ a, (![640, 0] : Fin 2 → Nat) a + S128x128.size a ≤ S1280x128.size a := by decide)
    (hx6 : ∀ a, (![6, 128 * q] : Fin 2 → Nat) a + S1x128.size a ≤ S10x1024.size a := by decide) (hp6 : ∀ a, (![768, 0] : Fin 2 → Nat) a + S128x128.size a ≤ S1280x128.size a := by decide)
    (hx7 : ∀ a, (![7, 128 * q] : Fin 2 → Nat) a + S1x128.size a ≤ S10x1024.size a := by decide) (hp7 : ∀ a, (![896, 0] : Fin 2 → Nat) a + S128x128.size a ≤ S1280x128.size a := by decide)
    (hx8 : ∀ a, (![8, 128 * q] : Fin 2 → Nat) a + S1x128.size a ≤ S10x1024.size a := by decide) (hp8 : ∀ a, (![1024, 0] : Fin 2 → Nat) a + S128x128.size a ≤ S1280x128.size a := by decide)
    (hx9 : ∀ a, (![9, 128 * q] : Fin 2 → Nat) a + S1x128.size a ≤ S10x1024.size a := by decide) (hp9 : ∀ a, (![1152, 0] : Fin 2 → Nat) a + S128x128.size a ≤ S1280x128.size a := by decide)
    (x : S128x128.Idx) :
    chunk (F := Ideal) (View.ld x2 (Rect.unit (s := S128x128) ![0, 0] S128x128.size ic))
      (View.ld x0 (Rect.unit (s := S10x1024) ![0, 128 * q] S1x128.size hx0)) (View.ld x1 (Rect.unit (s := S1280x128) ![0, 0] S128x128.size hp0))
      (View.ld x0 (Rect.unit (s := S10x1024) ![1, 128 * q] S1x128.size hx1)) (View.ld x1 (Rect.unit (s := S1280x128) ![128, 0] S128x128.size hp1))
      (View.ld x0 (Rect.unit (s := S10x1024) ![2, 128 * q] S1x128.size hx2)) (View.ld x1 (Rect.unit (s := S1280x128) ![256, 0] S128x128.size hp2))
      (View.ld x0 (Rect.unit (s := S10x1024) ![3, 128 * q] S1x128.size hx3)) (View.ld x1 (Rect.unit (s := S1280x128) ![384, 0] S128x128.size hp3))
      (View.ld x0 (Rect.unit (s := S10x1024) ![4, 128 * q] S1x128.size hx4)) (View.ld x1 (Rect.unit (s := S1280x128) ![512, 0] S128x128.size hp4))
      (View.ld x0 (Rect.unit (s := S10x1024) ![5, 128 * q] S1x128.size hx5)) (View.ld x1 (Rect.unit (s := S1280x128) ![640, 0] S128x128.size hp5))
      (View.ld x0 (Rect.unit (s := S10x1024) ![6, 128 * q] S1x128.size hx6)) (View.ld x1 (Rect.unit (s := S1280x128) ![768, 0] S128x128.size hp6))
      (View.ld x0 (Rect.unit (s := S10x1024) ![7, 128 * q] S1x128.size hx7)) (View.ld x1 (Rect.unit (s := S1280x128) ![896, 0] S128x128.size hp7))
      (View.ld x0 (Rect.unit (s := S10x1024) ![8, 128 * q] S1x128.size hx8)) (View.ld x1 (Rect.unit (s := S1280x128) ![1024, 0] S128x128.size hp8))
      (View.ld x0 (Rect.unit (s := S10x1024) ![9, 128 * q] S1x128.size hx9)) (View.ld x1 (Rect.unit (s := S1280x128) ![1152, 0] S128x128.size hp9)) x
      = blockFn x0 x1 x2 ((Rect.unit (s := S1024x128) ![128 * q, 0] S128x128.size io).emb x) := by
  obtain ⟨n, j, rfl⟩ : ∃ (n j : Fin 128), x = @ix2 128 128 n j := ⟨x 0, x 1, eq_ix2 x⟩
  rw [chunk_apply]
  unfold blockFn
  refine Finset.sum_congr rfl fun m _ => ?_
  rw [term_eq x0 x1 0 q 0 0 rfl rfl hp0 hx0 m n ((Rect.unit (s := S1024x128) ![128 * q, 0] S128x128.size io).emb (ix2 n j) 0) rfl,
    term_eq x0 x1 1 q 1 128 rfl rfl hp1 hx1 m n ((Rect.unit (s := S1024x128) ![128 * q, 0] S128x128.size io).emb (ix2 n j) 0) rfl,
    term_eq x0 x1 2 q 2 256 rfl rfl hp2 hx2 m n ((Rect.unit (s := S1024x128) ![128 * q, 0] S128x128.size io).emb (ix2 n j) 0) rfl,
    term_eq x0 x1 3 q 3 384 rfl rfl hp3 hx3 m n ((Rect.unit (s := S1024x128) ![128 * q, 0] S128x128.size io).emb (ix2 n j) 0) rfl,
    term_eq x0 x1 4 q 4 512 rfl rfl hp4 hx4 m n ((Rect.unit (s := S1024x128) ![128 * q, 0] S128x128.size io).emb (ix2 n j) 0) rfl,
    term_eq x0 x1 5 q 5 640 rfl rfl hp5 hx5 m n ((Rect.unit (s := S1024x128) ![128 * q, 0] S128x128.size io).emb (ix2 n j) 0) rfl,
    term_eq x0 x1 6 q 6 768 rfl rfl hp6 hx6 m n ((Rect.unit (s := S1024x128) ![128 * q, 0] S128x128.size io).emb (ix2 n j) 0) rfl,
    term_eq x0 x1 7 q 7 896 rfl rfl hp7 hx7 m n ((Rect.unit (s := S1024x128) ![128 * q, 0] S128x128.size io).emb (ix2 n j) 0) rfl,
    term_eq x0 x1 8 q 8 1024 rfl rfl hp8 hx8 m n ((Rect.unit (s := S1024x128) ![128 * q, 0] S128x128.size io).emb (ix2 n j) 0) rfl,
    term_eq x0 x1 9 q 9 1152 rfl rfl hp9 hx9 m n ((Rect.unit (s := S1024x128) ![128 * q, 0] S128x128.size io).emb (ix2 n j) 0) rfl]
  refine congrArg (_ * ·) (congrArg x2 (funext fun a => Fin.ext (by
    match a with
    | ⟨0, _⟩ => show 0 + 1 * m.val = m.val; omega
    | ⟨1, _⟩ => rfl)))

/-- WHAT THE BODY LEAVES IN THE OUTPUT BLOCK'S BUFFER IS `blockFn` OF THE INPUT BLOCKS: the eight stores' rectangles tile the buffer,
    and each store's payload is the block function on its rectangle. -/
theorem out0_3_eq_blockFn (x0 : Vec Ideal S10x1024 .f32) (x1 : Vec Ideal S1280x128 .f32) (x2 : Vec Ideal S128x128 .f32) :
    out0_3 (F := Ideal) x0 x1 x2 = blockFn x0 x1 x2 := by
  funext y
  rw [out0_3_eq]
  refine View.canon_apply_of_pieces (blockFn x0 x1 x2) _ ?_ y (cover0_3 _ _ _ _ _ _ _ _ y)
  intro p hp
  rcases List.mem_cons.mp hp with rfl | hp
  · exact fun x => chunk_eq_blockFn x0 x1 x2 7 (x := x)
  rcases List.mem_cons.mp hp with rfl | hp
  · exact fun x => chunk_eq_blockFn x0 x1 x2 6 (x := x)
  rcases List.mem_cons.mp hp with rfl | hp
  · exact fun x => chunk_eq_blockFn x0 x1 x2 5 (x := x)
  rcases List.mem_cons.mp hp with rfl | hp
  · exact fun x => chunk_eq_blockFn x0 x1 x2 4 (x := x)
  rcases List.mem_cons.mp hp with rfl | hp
  · exact fun x => chunk_eq_blockFn x0 x1 x2 3 (x := x)
  rcases List.mem_cons.mp hp with rfl | hp
  · exact fun x => chunk_eq_blockFn x0 x1 x2 2 (x := x)
  rcases List.mem_cons.mp hp with rfl | hp
  · exact fun x => chunk_eq_blockFn x0 x1 x2 1 (x := x)
  rcases List.mem_cons.mp hp with rfl | hp
  · exact fun x => chunk_eq_blockFn x0 x1 x2 0 (x := x)
  exact absurd hp List.not_mem_nil

end Cert.KernelIdeal.Block

end
-- ==== Proof.KernelValue.lean ====
/-
  The kernel's result array as the specification of its three argument arrays.

  Before the region the host transposes the points (so the region's first window sees `Xt (d, n) = X (n, d)`) and spreads
  the transposed grid points over 128 lanes and flattens (so its second window sees `T (128 d + m, l) = P (m, d)` at every lane `l`);
  the matrix is read as launched. Grid point `t` of the pipeline sees columns `1024 t … 1024 t + 1023` of `Xt`, the whole of `T` and of
  `C`, and writes rows `1024 t … 1024 t + 1023` of the result. So the block function of those blocks at block row `r` is the
  specification at row `1024 t + r` — here, and only here, the points' finiteness is used, to turn `|P - X|` into `|X - P|` —, and the 128
  blocks tile the result array.
-/
import proofs.«124527_g10067403342211_week1_w1_198_11_alg».proof.Proof.Gen.KernelIdeal.Value
import proofs.«124527_g10067403342211_week1_w1_198_11_alg».proof.Proof.BlockFn
import Idealize.ShloMosaic.Lib.ValueLayout
import Idealize.ShloMosaic.Lib.StableHlo.Run

set_option maxRecDepth 16384

noncomputable section

namespace Cert.KernelIdeal.Whole

open Cert.KernelIdeal Cert.KernelIdeal.Gen Cert.KernelIdeal.Block Idealize.ShloMosaic Idealize.ShloMosaic.TcCoe Idealize.SL.Sem
open Idealize.ShloMosaic.ValueIdx Idealize.ShloMosaic.StableHlo
open Idealize.ShloMosaic.Pipeline (Dat)
open Cert.Tmk (absE)

/-- Row `r` of grid point `t`'s block is row `1024 t + r` of the array. -/
def globalRow (t : Nat) (ht : t < 128) (r : Fin 1024) : Fin 131072 := ⟨1024 * t + r.val, by have := r.isLt; omega⟩

/-- THE BLOCK FUNCTION OF BLOCKS THAT READ THE ARGUMENTS AS THE HOST LAID THEM OUT IS THE SPECIFICATION: over blocks
    `x0`, `x1`, `x2` of literal types that read `X` transposed at columns `1024 t + ·`, `P` transposed and lane-replicated, and
    `C` itself, with `X` and `P` finite. -/
theorem blockFn_eq_result (x0 : Vec Ideal S10x1024 .f32) (x1 : Vec Ideal S1280x128 .f32) (x2 : Vec Ideal S128x128 .f32)
    (X : S131072x10.Idx → EReal) (P : S128x10.Idx → EReal) (C : S128x128.Idx → EReal) (t : Nat) (ht : t < 128)
    (h0 : ∀ (d : Fin 10) (r : Fin 1024), x0 (ix2 d r) = X (ix2 (globalRow t ht r) d))
    (h1 : ∀ (d : Fin 10) (mm l : Fin 128), x1 (ix2 (tableRow d mm) l) = P (ix2 mm d))
    (h2 : ∀ (mm j : Fin 128), x2 (ix2 mm j) = C (ix2 mm j))
    (hX : ∀ i, X i ≠ ⊤ ∧ X i ≠ ⊥) (hP : ∀ i, P i ≠ ⊤ ∧ P i ≠ ⊥)
    (y : S1024x128.Idx) (i : S131072x128.Idx) (hi0 : (i 0).val = 1024 * t + (y 0).val) (hi1 : (i 1).val = (y 1).val) :
    blockFn x0 x1 x2 y = Cert.Tmk.result X P C i := by
  show ∑ mm : Fin 128, _ = ∑ mm : Fin 128, Ideal.exp (Cert.Tmk.expo (fun d => X (ix2 (i 0) d)) (fun d => P (ix2 mm d))) * C (ix2 mm (i 1))
  refine Finset.sum_congr rfl fun mm _ => ?_
  rw [← Cert.Tmk.zero_sub_sum_eq_expo (fun d => X (ix2 (i 0) d)) (fun d => P (ix2 mm d)) (fun d => hX _) (fun d => hP _)]
  have e0 : globalRow t ht (y 0) = i 0 := Fin.ext hi0.symm
  have e1 : y 1 = i 1 := Fin.ext hi1.symm
  simp only [h1]
  rw [h0 0 (y 0), h0 1 (y 0), h0 2 (y 0), h0 3 (y 0), h0 4 (y 0), h0 5 (y 0), h0 6 (y 0), h0 7 (y 0), h0 8 (y 0), h0 9 (y 0), h2 mm (y 1), e0, e1]

/-- Every entry of an array is a real number. -/
abbrev IsFinite {s : Shape} (a : FVec Ideal s .f32) : Prop := ∀ i, a i ≠ ⊤ ∧ a i ≠ ⊥

variable (m : (ℓ : Loc nD τ sig) → Buf (Elt Ideal) ℓ) (ρ : Dev nD → PrngReg)

/-! ## The arrays the host wrote before the region -/

/-- The first window's array is the points, transposed. -/
theorem V_main_v0 (c : Dev nD) : (V m c main_v0 : S10x131072.Idx → EReal)
    = transpose S10x131072 [1, 0] (m ((c : Thread nD τ).loc main_arg0)) transposes_S131072x10_S10x131072_1_0 := by
  dsimp only [V, hostOps0]; after_results

/-- The second window's array is the grid points transposed, spread over a new axis of 128 lanes, and flattened to 1280 rows. -/
theorem V_main_v4 (c : Dev nD) : (V m c main_v4 : S1280x128.Idx → EReal)
    = shapeCast S1280x128 (broadcastInDim S10x128x128 ![0, 1, 2] bcast_S10x128x1_S10x128x128_0_1_2
        (broadcastInDim S10x128x1 ![0, 1] bcast_S10x128_S10x128x1_0_1
          (transpose S10x128 [1, 0] (m ((c : Thread nD τ).loc main_arg1)) transposes_S128x10_S10x128_1_0))) shapeCasts_S10x128x128_S1280x128 := by
  dsimp only [V, hostOps0]; after_results; rfl

theorem xt_apply (c : Dev nD) (d : Fin 10) (n : Fin 131072) :
    V m c main_v0 (@ix2 10 131072 d n) = m ((c : Thread nD τ).loc main_arg0) (@ix2 131072 10 n d) := by
  rw [V_main_v0]
  exact transpose_ix2_apply _ _ d n

theorem table_apply (c : Dev nD) (d : Fin 10) (mm l : Fin 128) :
    V m c main_v4 (@ix2 1280 128 (tableRow d mm) l) = m ((c : Thread nD τ).loc main_arg1) (@ix2 128 10 mm d) := by
  rw [V_main_v4]
  refine (shapeCast_apply _ shapeCasts_S10x128x128_S1280x128 (@ix2 1280 128 (tableRow d mm) l) (@ix3 10 128 128 d mm l) (by
    rw [Shape.rowMajor_val_three, Shape.rowMajor_val_two]
    show (d.val * 128 + mm.val) * 128 + l.val = (128 * d.val + mm.val) * 128 + l.val
    omega)).trans ?_
  refine (broadcastInDim_apply ![0, 1, 2] bcast_S10x128x1_S10x128x128_0_1_2 _ (@ix3 10 128 128 d mm l) (@ix3 10 128 1 d mm 0) (fun a => match a with
    | ⟨0, _⟩ => by show d.val = if (10 : Nat) = 1 then 0 else d.val; rw [if_neg (by decide)]
    | ⟨1, _⟩ => by show mm.val = if (128 : Nat) = 1 then 0 else mm.val; rw [if_neg (by decide)]
    | ⟨2, _⟩ => by show (0 : Nat) = if (1 : Nat) = 1 then 0 else l.val; rw [if_pos rfl])).trans ?_
  refine (broadcastInDim_apply ![0, 1] bcast_S10x128_S10x128x1_0_1 _ (@ix3 10 128 1 d mm 0) (@ix2 10 128 d mm) (fun a => match a with
    | ⟨0, _⟩ => by show d.val = if (10 : Nat) = 1 then 0 else d.val; rw [if_neg (by decide)]
    | ⟨1, _⟩ => by show mm.val = if (128 : Nat) = 1 then 0 else mm.val; rw [if_neg (by decide)])).trans ?_
  exact transpose_ix2_apply _ _ d mm

/-! ## The windows' blocks -/

/-- The printed index maps, decided over the 128 grid points: the first window moves along the columns with the point, the second
    and third stay, the output moves along the rows. -/
theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt_N (t : Fin cfg0.N) : t.val < 128 := N_0 ▸ t.isLt

theorem iblk0_apply (c : Dev nD) (t : Fin cfg0.N) (d : Fin 10) (r : Fin 1024) :
    iblk m c 0 t (@ix2 10 1024 d r) = m ((c : Thread nD τ).loc main_arg0) (@ix2 131072 10 (globalRow t.val (lt_N t) r) d) := by
  obtain ⟨e00, e01, -⟩ := idx_facts t
  have e : ((cfg0.win 0).blk t).view.emb (@ix2 10 1024 d r) = @ix2 10 131072 d (globalRow t.val (lt_N t) r) := funext fun a => Fin.ext (by
    match a with
    | ⟨0, _⟩ => show win0_0.index t (0 : Fin 2) * 10 + 1 * d.val = d.val; rw [e00]; omega
    | ⟨1, _⟩ => show win0_0.index t (1 : Fin 2) * 1024 + 1 * r.val = 1024 * t.val + r.val; rw [e01]; omega)
  show V m c main_v0 (((cfg0.win 0).blk t).view.emb (@ix2 10 1024 d r)) = _
  rw [e]
  exact xt_apply m c d _

theorem iblk1_apply (c : Dev nD) (t : Fin cfg0.N) (d : Fin 10) (mm l : Fin 128) :
    iblk m c 1 t (@ix2 1280 128 (tableRow d mm) l) = m ((c : Thread nD τ).loc main_arg1) (@ix2 128 10 mm d) := by
  obtain ⟨-, -, e10, e11, -⟩ := idx_facts t
  have e : ((cfg0.win 1).blk t).view.emb (@ix2 1280 128 (tableRow d mm) l) = @ix2 1280 128 (tableRow d mm) l := funext fun a => Fin.ext (by
    match a with
    | ⟨0, _⟩ => show win0_1.index t (0 : Fin 2) * 1280 + 1 * (tableRow d mm).val = (tableRow d mm).val; rw [e10]; omega
    | ⟨1, _⟩ => show win0_1.index t (1 : Fin 2) * 128 + 1 * l.val = l.val; rw [e11]; omega)
  show V m c main_v4 (((cfg0.win 1).blk t).view.emb (@ix2 1280 128 (tableRow d mm) l)) = _
  rw [e]
  exact table_apply m c d mm l

theorem iblk2_apply (c : Dev nD) (t : Fin cfg0.N) (mm j : Fin 128) :
    iblk m c 2 t (@ix2 128 128 mm j) = m ((c : Thread nD τ).loc main_arg2) (@ix2 128 128 mm j) := by
  obtain ⟨-, -, -, -, e20, e21, -⟩ := idx_facts t
  have e : ((cfg0.win 2).blk t).view.emb (@ix2 128 128 mm j) = @ix2 128 128 mm j := funext fun a => Fin.ext (by
    match a with
    | ⟨0, _⟩ => show win0_2.index t (0 : Fin 2) * 128 + 1 * mm.val = mm.val; rw [e20]; omega
    | ⟨1, _⟩ => show win0_2.index t (1 : Fin 2) * 128 + 1 * j.val = j.val; rw [e21]; omega)
  show V m c main_arg2 (((cfg0.win 2).blk t).view.emb (@ix2 128 128 mm j)) = _
  rw [e, V_main_arg2]

/-! ## What each point writes back, and the whole array -/

/-- The points and the grid points are finite: what the precondition gives. -/
def FiniteArgs : Prop := ∀ c : Dev nD,
  IsFinite (s := S131072x10) (m ((c : Thread nD τ).loc main_arg0)) ∧ IsFinite (s := S128x10) (m ((c : Thread nD τ).loc main_arg1))

/-- The specification of the launch contents of the three arguments. -/
abbrev spec (c : Dev nD) : S131072x128.Idx → EReal :=
  Cert.Tmk.result (m ((c : Thread nD τ).loc main_arg0)) (m ((c : Thread nD τ).loc main_arg1)) (m ((c : Thread nD τ).loc main_arg2))

/-- WHAT POINT `t` WRITES BACK is block `t` of the specification. -/
theorem flushed_eq (hfin : FiniteArgs m) (c : Dev nD) (t : Fin cfg0.N) :
    (dats m 0 c).flushed 3 t = ((cfg0.win 3).blk t).view.read (Elt Ideal) (spec m c) := by
  rw [Cert.KernelIdeal.Value.flushed3, out0_3_eq_blockFn]
  obtain ⟨-, -, -, -, -, -, e30, e31⟩ := idx_facts t
  funext y
  show blockFn (iblk m c 0 t) (iblk m c 1 t) (iblk m c 2 t) y = spec m c (((cfg0.win 3).blk t).view.emb y)
  refine blockFn_eq_result _ _ _ _ _ _ t.val (lt_N t) (iblk0_apply m c t) (iblk1_apply m c t) (iblk2_apply m c t) (hfin c).1 (hfin c).2 y _ ?_ ?_
  · show win0_3.index t (0 : Fin 2) * 1024 + 1 * (y 0).val = 1024 * t.val + (y 0).val; rw [e30]; omega
  · show win0_3.index t (1 : Fin 2) * 128 + 1 * (y 1).val = (y 1).val; rw [e31]; omega

/-- An index of the array is in point `t`'s block iff each coordinate is in the block's range on its axis. -/
theorem mem_blk (t : Fin cfg0.N) (i : S131072x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v5).slice (win0_3.rect t)).set ↔ _
  rw [View.set_slice_whole, Rect.mem_set_unit]
  exact Iff.rfl

/-- THE ARRAY after the run is the specification: row `n` lies in the block of point `n / 1024`. -/
theorem final (hfin : FiniteArgs m) (c : Dev nD) : (dats m 0 c).arrAt 3 cfg0.N = spec m c :=
  (dats m 0 c).arrAt_eq_of_cover 3 (spec m c) (fun t _ => flushed_eq m hfin c t) fun i => by
    have hi0 : (i 0).val < 131072 := (i 0).isLt
    have hi1 : (i 1).val < 128 := (i 1).isLt
    refine ⟨⟨(i 0).val / 1024, by rw [show cfg0.N = 128 from N_0]; omega⟩, flush0_3 _, ?_⟩
    rw [mem_blk]
    obtain ⟨-, -, -, -, -, -, e30, e31⟩ := idx_facts ⟨(i 0).val / 1024, by rw [show cfg0.N = 128 from N_0]; omega⟩
    intro a
    match a with
    | ⟨0, _⟩ => show win0_3.index _ (0 : Fin 2) * 1024 ≤ (i 0).val ∧ (i 0).val < win0_3.index _ (0 : Fin 2) * 1024 + 1024; rw [e30]; show (i 0).val / 1024 * 1024 ≤ (i 0).val ∧ (i 0).val < (i 0).val / 1024 * 1024 + 1024; omega
    | ⟨1, _⟩ => show win0_3.index _ (1 : Fin 2) * 128 ≤ (i 1).val ∧ (i 1).val < win0_3.index _ (1 : Fin 2) * 128 + 128; rw [e31]; omega

/-- THE KERNEL'S RUN, READ: every weakly fair execution ends with the result array at the specification of the launch contents,
    and the arguments as launched. -/
theorem run (hfin : FiniteArgs m) : θ_run defs (onTc (τ := τ) (main (F := Ideal))) ⟨m, fun _ => 0, ρ⟩ fun r => ∀ c : Dev nD,
      r.2.mem ((c : Thread nD τ).loc main_v5) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m hfin c), (h c).2⟩) (Cert.KernelIdeal.Value.run_blocks m ρ)

end Cert.KernelIdeal.Whole

end
-- ==== Proof.RefValue.lean ====
/-
  The reference's result is the specification, index by index.

  The reference spreads the points and the grid points over a common [131072, 128, 10] index space, subtracts, takes absolute
  values, sums the last axis from `0`, negates, divides by `1`, exponentiates and multiplies by the matrix: entry `(n, j)` is
  `∑ m, exp (-(0 + ∑ d, |X (n, d) - P (m, d)|) / 1) · C (m, j)`, which is the specification as it is written. Nothing here needs finiteness.
-/
import proofs.«124527_g10067403342211_week1_w1_198_11_alg».proof.Proof.Gen.ReferenceIdeal.Read
import proofs.«124527_g10067403342211_week1_w1_198_11_alg».proof.Proof.Spec

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx
open Cert.Tmk (absE)

/-- The reference's last stage is the specification of its three arguments. -/
theorem stage_eq_result (x0 : (⟨S131072x10, .f32⟩ : BufTy).Contents (Elt Ideal)) (x1 : (⟨S128x10, .f32⟩ : BufTy).Contents (Elt Ideal))
    (x2 : (⟨S128x128, .f32⟩ : BufTy).Contents (Elt Ideal)) :
    val_main_v11 (F := Ideal) x0 x1 x2 = Cert.Tmk.result x0 x1 x2 := by
  funext i
  rw [val_main_v11_apply]
  show _ = ∑ mm : Fin 128, Ideal.exp (Cert.Tmk.expo (fun d => x0 (ix2 (i 0) d)) (fun d => x1 (ix2 mm d))) * x2 (ix2 mm (i 1))
  refine Finset.sum_congr rfl fun k _ => ?_
  have er : ridx_main_v11 i k = @ix2 128 128 k (i 1) := funext fun a => Fin.ext (by
    match a with
    | ⟨0, _⟩ => rfl
    | ⟨1, _⟩ => rfl)
  rw [er]
  refine congrArg (· * x2 (@ix2 128 128 k (i 1))) ?_
  rw [val_main_v10_apply, val_main_v9_apply, val_main_v7_apply, val_main_v6_apply, val_main_v8_apply, val_main_cst_0_apply, val_main_cst_apply]
  unfold Cert.Tmk.expo
  simp only [Ideal.hostUnary_exp_def, Ideal.hostDivf_def, Ideal.hostNegf_def, Ideal.negf_def, Ideal.ofBits_def]
  refine congrArg (fun s => Ideal.exp (Ideal.div (-(Ideal.ofBits .f32 0x00000000#32 + s)) (Ideal.ofBits .f32 0x3F800000#32)))
    (Finset.sum_congr rfl fun d _ => ?_)
  rw [val_main_v5_apply, val_main_v4_apply, val_main_v2_apply, val_main_v3_apply, val_main_v0_apply, val_main_v1_apply]
  have e0 : idx_main_v0 (idx_main_v2 (idx_main_v6 (lidx_main_v11 i k) d)) = @ix2 131072 10 (i 0) d := funext fun a => Fin.ext (by
    match a with
    | ⟨0, _⟩ => rfl
    | ⟨1, _⟩ => rfl)
  have e1 : idx_main_v1 (idx_main_v3 (idx_main_v6 (lidx_main_v11 i k) d)) = @ix2 128 10 k d := funext fun a => Fin.ext (by
    match a with
    | ⟨0, _⟩ => rfl
    | ⟨1, _⟩ => rfl)
  rw [e0, e1]
  rfl

end Cert.ReferenceIdeal.RefValue

end
-- ==== Proof.Finite.lean ====
/-
  The precondition, read: every entry of the points and of the grid points is a real number.

  The printed predicate is `all (|a0| < +inf) ∧ all (|a1| < +inf) ∧ all (|a2| < +inf)`, each `all` a reduction by `and` over a
  whole array into one word. That the word is 1 says every compared entry is; on the extended reals `max x (-x) < ⊤` says
  `x` is neither infinity.
-/
import proofs.«124527_g10067403342211_week1_w1_198_11_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Pre_finite_inputs.Read

open Cert.Pre_finite_inputs Idealize.ShloMosaic

instance : Subsingleton S_.Idx := ⟨fun a b => funext fun d => d.elim0⟩

/-- The word `+inf` denotes `⊤`. -/
theorem ofBits_inf : Ideal.ofBits .f32 0x7F800000#32 = ⊤ := by simp [Ideal.ofBits, Ideal.ieee]

/-- An extended real whose absolute value is below `⊤` is neither infinity. -/
theorem finite_of_abs_lt (x : EReal) (h : max x (-x) < ⊤) : x ≠ ⊤ ∧ x ≠ ⊥ := by
  obtain ⟨h1, h2⟩ := max_lt_iff.mp h
  refine ⟨ne_of_lt h1, fun hb => ?_⟩
  rw [hb, EReal.neg_bot] at h2
  exact lt_irrefl _ h2

/-- One `all (|a| < +inf)` that came out 1: every entry of `a` is finite. -/
theorem finite_of_all {n0 n1 : Nat} (a : FVec Ideal ⟨2, ![n0, n1]⟩ .f32)
    (bc : S_.BroadcastsInDim (⟨2, ![n0, n1]⟩ : Shape) (![] : Fin 0 → Fin 2)) (hr : (⟨2, ![n0, n1]⟩ : Shape).ReducesTo [0, 1] S_) (hu : 0 < S_.numel)
    (h : Host.reduce IntOp.andi (cmpf .olt (Host.absf a) (broadcastInDim (⟨2, ![n0, n1]⟩ : Shape) ![] bc (constant S_ .f32 0x7F800000#32))) (constantI S_ 1 1#1) hr hu ValueIdx.ix0 = 1#1)
    (i : (⟨2, ![n0, n1]⟩ : Shape).Idx) : a i ≠ ⊤ ∧ a i ≠ ⊥ := by
  have hi := Host.reduce_andi_all _ _ hr hu ValueIdx.ix0 h i
  change BitVec.ofBool (decide (max (a i) (-(a i)) < Ideal.ofBits .f32 0x7F800000#32)) = 1#1 at hi
  rw [ofBits_inf] at hi
  refine finite_of_abs_lt _ ?_
  by_contra hn
  rw [decide_eq_false hn] at hi
  exact absurd hi (by decide)

/-- THE PRECONDITION, READ: `fn` all ones makes the first two arrays finite, entry by entry. -/
theorem finite_of_fn (a0 : FVec Ideal S131072x10 .f32) (a1 : FVec Ideal S128x10 .f32) (a2 : FVec Ideal S128x128 .f32)
    (h : fn (F := Ideal) a0 a1 a2 = fun _ => 1#1) :
    (∀ i, a0 i ≠ ⊤ ∧ a0 i ≠ ⊥) ∧ (∀ i, a1 i ≠ ⊤ ∧ a1 i ≠ ⊥) := by
  have h0 := congrFun h ValueIdx.ix0
  dsimp only [fn] at h0
  obtain ⟨h01, -⟩ := IntOp.andi_eq_one.mp h0
  obtain ⟨hA, hB⟩ := IntOp.andi_eq_one.mp h01
  exact ⟨fun i => finite_of_all a0 Facts.bcast_S_S131072x10 Facts.reducesTo_S131072x10_S_d0_1 Facts.h_S_ hA i, fun i => finite_of_all a1 Facts.bcast_S_S128x10 Facts.reducesTo_S128x10_S_d0_1 Facts.h_S_ hB i⟩

end Cert.Pre_finite_inputs.Read

end
-- ==== Proof.lean ====
/-
  The kernel computes `exp (-∑_d |x_nd - p_md|) @ C` in one launch — per grid point, eight 128-row chunks, each a transposed
  tile of the Laplace product kernel contracted against `C` on its first axis — and the reference computes it with jnp on whole
  arrays. On the extended reals both are `∑ m, exp (-(∑ d, |X (n, d) - P (m, d)|)) · C (m, j)` (Proof/Spec.lean's `result`):

  * the reference's stages, read at an index, are that sum as written (Proof/RefValue.lean);
  * the kernel's eight stores per grid point are eight chunks of one block function (Proof/Chunk.lean, Proof/BlockFn.lean), the
    block function of the blocks the pipeline stages is the specification on that block, and the 128 blocks tile the result
    (Proof/KernelValue.lean);
  * the kernel forms `|P - X|` where the reference forms `|X - P|`: equal for FINITE entries, which the precondition supplies
    (Proof/Finite.lean); `0 - s` against `-(0 + s) / 1` and the order of the ten summands hold for all extended reals.

  The three frames: the two kernels' are the generated frame certificates of their printed programs; the reference has no kernel, and
  its frame is its run with the result dropped. The ideal pass rewrote nothing, so `preserves` has no conjunct.
-/
import proofs.«124527_g10067403342211_week1_w1_198_11_alg».proof.Defs
import proofs.«124527_g10067403342211_week1_w1_198_11_alg».proof.Proof.Gen.Kernel
import proofs.«124527_g10067403342211_week1_w1_198_11_alg».proof.Proof.Gen.Kernel.Skeleton
import proofs.«124527_g10067403342211_week1_w1_198_11_alg».proof.Proof.Gen.Kernel.Launch
import proofs.«124527_g10067403342211_week1_w1_198_11_alg».proof.Proof.Gen.Kernel.Points
import proofs.«124527_g10067403342211_week1_w1_198_11_alg».proof.Proof.Gen.Kernel.Frame
import proofs.«124527_g10067403342211_week1_w1_198_11_alg».proof.Proof.Gen.KernelIdeal
import proofs.«124527_g10067403342211_week1_w1_198_11_alg».proof.Proof.Gen.KernelIdeal.Skeleton
import proofs.«124527_g10067403342211_week1_w1_198_11_alg».proof.Proof.Gen.KernelIdeal.Launch
import proofs.«124527_g10067403342211_week1_w1_198_11_alg».proof.Proof.Gen.KernelIdeal.Points
import proofs.«124527_g10067403342211_week1_w1_198_11_alg».proof.Proof.Gen.KernelIdeal.Frame
import proofs.«124527_g10067403342211_week1_w1_198_11_alg».proof.Proof.Gen.ReferenceIdeal
import proofs.«124527_g10067403342211_week1_w1_198_11_alg».proof.Proof.Gen.Pre_finite_inputs
import proofs.«124527_g10067403342211_week1_w1_198_11_alg».proof.Proof.Gen.KernelIdeal.Value
import proofs.«124527_g10067403342211_week1_w1_198_11_alg».proof.Proof.Gen.ReferenceIdeal.Run
import proofs.«124527_g10067403342211_week1_w1_198_11_alg».proof.Proof.Gen.ReferenceIdeal.Read
import proofs.«124527_g10067403342211_week1_w1_198_11_alg».proof.Proof.KernelValue
import proofs.«124527_g10067403342211_week1_w1_198_11_alg».proof.Proof.RefValue
import proofs.«124527_g10067403342211_week1_w1_198_11_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Under the precondition the points and the grid points are finite, on every device. -/
theorem finite_args (m : (ℓ : Loc Cert.KernelIdeal.nD Cert.KernelIdeal.τ Cert.KernelIdeal.sig) → Buf (Elt Ideal) ℓ)
    (hpre : Cert.Pre_KernelIdeal m) : Cert.KernelIdeal.Whole.FiniteArgs m := fun c =>
  Cert.Pre_finite_inputs.Read.finite_of_fn _ _ _ (hpre c)

/-- Both runs end with the result array at the specification of the (agreeing) arguments. -/
theorem algebraic : Cert.algebraic_KernelIdeal_ReferenceIdeal := by
  intro m ρ m' ρ' hpre hagree
  refine ⟨fun c => Cert.KernelIdeal.Whole.spec m c, Cert.KernelIdeal.Whole.run m ρ (finite_args m hpre), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.stage_eq_result,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
